-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) (main_arg2 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  main_v13
-- ==== Kernel.lean ====
abbrev S131072x256 : Shape := ⟨2, ![131072, 256]⟩
abbrev S256x256 : Shape := ⟨2, ![256, 256]⟩
abbrev S_ : Shape := ⟨0, ![]⟩
abbrev S4096x256 : Shape := ⟨2, ![4096, 256]⟩

abbrev nBuf : Space → Nat
  | .hbm => 22
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .hbm, ⟨3, _⟩ => ⟨S_, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x256, .bf16⟩
  | .local _ .vmem, ⟨5, _⟩ => ⟨S4096x256, .f32⟩
  | .local _ .vmem, ⟨6, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x256 : S_.BroadcastsInDim S256x256 (![] : Fin 0 → Fin S256x256.rank)
  slices_S131072x256_S256x256_0_0 : S131072x256.Slices ![0, 0] S256x256
  transposes_S256x256_S256x256_1_0 : S256x256.Transposes [1, 0] S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .hbm, ⟨3, _⟩ => ⟨S_, .f32⟩
  | .hbm, ⟨4, _⟩ => ⟨S131072x256, .f32⟩
  | .hbm, ⟨5, _⟩ => ⟨S131072x256, .f32⟩
  | .hbm, ⟨6, _⟩ => ⟨S131072x256, .f32⟩
  | .hbm, ⟨7, _⟩ => ⟨S_, .f32⟩
  | .hbm, ⟨8, _⟩ => ⟨S131072x256, .f32⟩
  | .hbm, ⟨9, _⟩ => ⟨S131072x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S131072x256, .f32⟩
  | .hbm, ⟨20, _⟩ => ⟨S256x256, .f32⟩
  | .hbm, ⟨21, _⟩ => ⟨S131072x256, .f32⟩
  | .hbm, ⟨22, _⟩ => ⟨S256x256, .f32⟩
  | .hbm, ⟨23, _⟩ => ⟨S131072x256, .f32⟩
  | .hbm, ⟨24, _⟩ => ⟨S256x256, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S131072x256 : S_.BroadcastsInDim S131072x256 (![] : Fin 0 → Fin S131072x256.rank)
  bcast_S_S256x256 : S_.BroadcastsInDim S256x256 (![] : Fin 0 → Fin S256x256.rank)
  slices_S131072x256_S256x256_0_0 : S131072x256.Slices ![0, 0] S256x256
  transposes_S256x256_S256x256_1_0 : S256x256.Transposes [1, 0] S256x256
  dot_S131072x256_S256x256_S131072x256_1_0_0_1_n_n_wf : DotDims.WF S131072x256 S256x256 S131072x256 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.Finite.lean ====
/-
  What the precondition gives: it is the conjunction of three tests `all (|a| < +∞)`, one per argument array,
  and an extended real whose absolute value is below +∞ is a real. So under the precondition every entry of
  each of the three arrays is (the image of) a real number.
-/
import proofs.«410917_j15135464751426_3_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

/-- The scalar shape has one index. -/
instance : Subsingleton S_.Idx := ⟨fun _ _ => funext fun d => d.elim0⟩

/-- The pattern `0x7F800000` denotes +∞. -/
theorem ofBits_inf : Ideal.ofBits .f32 0x7F800000#32 = (⊤ : EReal) := by
  simp [Ideal.ofBits, Ideal.ieee]

/-- An extended real whose absolute value `max a (−a)` is strictly below +∞ is a real. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One test `all (|a| < +∞)` that came out true makes every entry of the array a real. -/
theorem real_of_all {s : Shape} {axes : List (Fin s.rank)} (hb : S_.BroadcastsInDim s (![] : Fin 0 → Fin s.rank)) (hr : s.ReducesTo axes S_) (hn : 0 < S_.numel)
    (a : FVec Ideal s .f32)
    (h : Host.reduce IntOp.andi (cmpf .olt (Host.absf a) (broadcastInDim s ![] hb (constant S_ .f32 0x7F800000#32)))
        (constantI S_ 1 1#1) hr hn ValueIdx.ix0 = 1#1) (j : s.Idx) : ∃ r : ℝ, a j = (r : EReal) := by
  have hj := Host.reduce_andi_all _ _ hr hn ValueIdx.ix0 h j
  refine real_of_abs_lt_top (a j) ?_
  rw [← ofBits_inf]
  have hbc : broadcastInDim s ![] hb (constant (F := Ideal) S_ .f32 0x7F800000#32) j = Ideal.ofBits .f32 0x7F800000#32 :=
    broadcastInDim_apply _ hb _ j ValueIdx.ix0 (fun d => d.elim0)
  rw [← hbc]
  exact hj

variable [Facts]
open Facts

/-- Under the precondition every entry of every argument array is a real. -/
theorem entries_real (a0 : FVec Ideal S131072x256 .f32) (a1 : FVec Ideal S256x256 .f32) (a2 : FVec Ideal S131072x256 .f32)
    (h : fn (F := Ideal) a0 a1 a2 = fun _ => 1#1) :
    (∀ j, ∃ r : ℝ, a0 j = (r : EReal)) ∧ (∀ j, ∃ r : ℝ, a1 j = (r : EReal)) ∧ (∀ j, ∃ r : ℝ, a2 j = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨real_of_all bcast_S_S131072x256 reducesTo_S131072x256_S_d0_1 h_S_ a0 h0',
    real_of_all bcast_S_S256x256 reducesTo_S256x256_S_d0_1 h_S_ a1 h1,
    real_of_all bcast_S_S131072x256 reducesTo_S131072x256_S_d0_1 h_S_ a2 h2⟩

end Cert.Finite

end
-- ==== Proof.Grid.lean ====
/-
  Rounding onto the grid of multiples of 1/128, on the extended reals: scale by 128, round to the nearest
  integer (ties to even), divide by 128. The pattern `0x43000000` is the real 128, so on a real argument
  the result is again a real (an integer over 128); nothing more about the rounding is ever needed, since
  both programs apply the very same function to the very same entries.
-/
import Idealize.ShloMosaic.PureOps.Ideal

noncomputable section

namespace Cert.Grid

open Idealize.ShloMosaic

/-- The pattern `0x43000000` denotes the real number 128. -/
theorem ofBits_128 : Ideal.ofBits .f32 0x43000000#32 = ((128 : ℝ) : EReal) := by
  simp [Ideal.ofBits, Ideal.ieee, -EReal.coe_mul]; norm_num

/-- An extended real put on the 1/128 grid: `round_even (a · 128) / 128`. -/
def q (a : EReal) : EReal :=
  Ideal.div (Ideal.liftRound Ideal.roundHalfEven (a * Ideal.ofBits .f32 0x43000000#32))
    (Ideal.ofBits .f32 0x43000000#32)

/-- On a real the grid value is the real `n / 128`, `n` the integer nearest `128 r`. -/
theorem q_coe (r : ℝ) :
    q (r : EReal) = (((Ideal.roundHalfEven (r * 128) : ℝ) * (1 / 128) : ℝ) : EReal) := by
  unfold q
  rw [ofBits_128, ← EReal.coe_mul, Ideal.liftRound_coe, Ideal.div_coe (by norm_num), ← EReal.coe_mul]

/-- So the grid value of a real entry is a real. -/
theorem q_real {a : EReal} (h : ∃ r : ℝ, a = (r : EReal)) : ∃ r : ℝ, q a = (r : EReal) := by
  obtain ⟨r, rfl⟩ := h
  exact ⟨_, q_coe r⟩

end Cert.Grid

end
-- ==== Proof.Bilinear.lean ====
/-
  The one algebraic law of this certificate. For real entries the contraction of a difference against a
  difference splits into four contractions:
      Σₖ (Xₖ − Mₖ)(Bₖ − Wₖ) = ((Σₖ XₖBₖ − Σₖ MₖBₖ) − Σₖ XₖWₖ) + Σₖ MₖWₖ.
  On the extended reals this needs every entry finite (distributing a product over a difference fails at an
  infinity), so it is stated for extended-real families each of whose members is the image of a real, and
  proved by carrying the whole equation back into ℝ.
-/
import Idealize.ShloMosaic.PureOps.Ideal

noncomputable section

open scoped BigOperators

namespace Cert.Bilinear

/-- The inclusion of the reals in the extended reals commutes with a finite sum. -/
theorem coe_sum {K : Type*} (s : Finset K) (f : K → ℝ) :
    ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- Four contractions of real families are the one contraction of their differences. -/
theorem four_products {K : Type*} [Fintype K] (X M B W : K → EReal)
    (hX : ∀ k, ∃ r : ℝ, X k = (r : EReal)) (hM : ∀ k, ∃ r : ℝ, M k = (r : EReal))
    (hB : ∀ k, ∃ r : ℝ, B k = (r : EReal)) (hW : ∀ k, ∃ r : ℝ, W k = (r : EReal)) :
    ((∑ k, X k * B k) - (∑ k, M k * B k) - (∑ k, X k * W k)) + (∑ k, M k * W k)
      = ∑ k, (X k - M k) * (B k - W k) := by
  choose x hx using hX
  choose mm hm using hM
  choose b hb using hB
  choose w hw using hW
  obtain rfl : X = fun k => ((x k : ℝ) : EReal) := funext hx
  obtain rfl : M = fun k => ((mm k : ℝ) : EReal) := funext hm
  obtain rfl : B = fun k => ((b k : ℝ) : EReal) := funext hb
  obtain rfl : W = fun k => ((w k : ℝ) : EReal) := funext hw
  simp only [← EReal.coe_mul, ← EReal.coe_sub, ← coe_sum, ← EReal.coe_add]
  congr 1
  simp only [sub_mul, mul_sub, Finset.sum_sub_distrib]
  ring

end Cert.Bilinear

end
-- ==== Proof.Spec.lean ====
/-
  The result of both programs as one function of the three argument arrays, entry by entry, on the
  extended reals. Write `q` for rounding onto the 1/128 grid. With `x` the tall [131072, 256] input, `w`
  the square [256, 256] weight and `mk` the tall [131072, 256] mask, entry (p, c) of the result is
      tanh( Σₖ (x[p,k] − q mk[p,k]) · (q w[c,k] − q mk[c,k]) ) + q mk[p,c]          (`collapsed`)
  where row `c < 256` of the mask is one of its first 256 rows. The four-product form
      tanh( ((Σₖ x[p,k]·q w[c,k] − Σₖ q mk[p,k]·q w[c,k]) − Σₖ x[p,k]·q mk[c,k]) + Σₖ q mk[p,k]·q mk[c,k] ) + q mk[p,c]
  (`fourfold`) is the same number whenever every entry of the three arrays is a real.
-/
import Idealize.ShloMosaic.Lib.ValueIdx
import proofs.«410917_j15135464751426_3_alg».proof.Proof.Grid
import proofs.«410917_j15135464751426_3_alg».proof.Proof.Bilinear

noncomputable section

open scoped BigOperators

namespace Cert.Spec

open Idealize.ShloMosaic Idealize.ShloMosaic.ValueIdx Cert.Grid

/-- The tall shape of the input, the mask and the result. -/
abbrev Tall : Shape := ⟨2, ![131072, 256]⟩
/-- The square shape of the weight. -/
abbrev Square : Shape := ⟨2, ![256, 256]⟩

/-- Row `c` of the square top corner of a tall array, as a row of the tall array. -/
def up (c : Fin 256) : Fin 131072 := ⟨c.val, by have := c.isLt; omega⟩

theorem up_val (c : Fin 256) : (up c).val = c.val := rfl

/-- Entry (p, c) as ONE contraction of differences. -/
def collapsed (x : Tall.Idx → EReal) (w : Square.Idx → EReal) (mk : Tall.Idx → EReal)
    (p : Fin 131072) (c : Fin 256) : EReal :=
  Ideal.tanh (∑ k : Fin 256, (x (ix2 p k) - q (mk (ix2 p k))) * (q (w (ix2 c k)) - q (mk (ix2 (up c) k))))
    + q (mk (ix2 p c))

/-- Entry (p, c) as FOUR contractions, subtracted and added in the order the plain formula writes them. -/
def fourfold (x : Tall.Idx → EReal) (w : Square.Idx → EReal) (mk : Tall.Idx → EReal)
    (p : Fin 131072) (c : Fin 256) : EReal :=
  Ideal.tanh ((((∑ k : Fin 256, x (ix2 p k) * q (w (ix2 c k)))
        - (∑ k : Fin 256, q (mk (ix2 p k)) * q (w (ix2 c k))))
        - (∑ k : Fin 256, x (ix2 p k) * q (mk (ix2 (up c) k))))
        + (∑ k : Fin 256, q (mk (ix2 p k)) * q (mk (ix2 (up c) k))))
    + q (mk (ix2 p c))

/-- On arrays of reals the two forms agree: the grid values of reals are reals, and the four contractions of
    real families are the contraction of the differences. -/
theorem fourfold_eq_collapsed (x : Tall.Idx → EReal) (w : Square.Idx → EReal) (mk : Tall.Idx → EReal)
    (hx : ∀ j, ∃ r : ℝ, x j = (r : EReal)) (hw : ∀ j, ∃ r : ℝ, w j = (r : EReal))
    (hmk : ∀ j, ∃ r : ℝ, mk j = (r : EReal)) (p : Fin 131072) (c : Fin 256) :
    fourfold x w mk p c = collapsed x w mk p c := by
  unfold fourfold collapsed
  rw [Cert.Bilinear.four_products (fun k : Fin 256 => x (ix2 p k)) (fun k => q (mk (ix2 p k)))
    (fun k => q (w (ix2 c k))) (fun k => q (mk (ix2 (up c) k)))
    (fun k => hx _) (fun k => q_real (hmk _)) (fun k => q_real (hw _)) (fun k => q_real (hmk _))]

end Cert.Spec

end
-- ==== Proof.RefValue.lean ====
/-
  The reference, entry by entry. Its two rounded arrays are the grid values of the mask and of the weight;
  each of its four matrix products contracts a row of `x` or of the rounded mask against a row of the rounded
  weight or of the rounded mask's top corner (the transposes only say that the second factor is read by ROW);
  so entry (p, c) of its result is the four-product form of the specification.
-/
import proofs.«410917_j15135464751426_3_alg».proof.Proof.Gen.ReferenceIdeal.Read
import proofs.«410917_j15135464751426_3_alg».proof.Proof.Spec

noncomputable section

open scoped BigOperators

namespace Cert.ReferenceIdeal.RefValue

open Cert.ReferenceIdeal Cert.ReferenceIdeal.Read Idealize.ShloMosaic Idealize.ShloMosaic.ValueIdx Cert.Spec Cert.Grid

/-- The rounded mask at an index is the grid value of the mask there. -/
theorem mask_grid (x2 : FVec Ideal S131072x256 .f32) (j : S131072x256.Idx) :
    val_main_v4 (F := Ideal) x2 j = q (x2 j) := by
  rw [val_main_v4_apply, val_main_v2_apply, val_main_v1_apply, val_main_v0_apply, val_main_v3_apply,
    val_main_cst_apply, val_main_cst_0_apply]
  rfl

/-- The rounded weight at an index is the grid value of the weight there. -/
theorem weight_grid (x1 : FVec Ideal S256x256 .f32) (j : S256x256.Idx) :
    val_main_v9 (F := Ideal) x1 j = q (x1 j) := by
  rw [val_main_v9_apply, val_main_v7_apply, val_main_v6_apply, val_main_v5_apply, val_main_v8_apply,
    val_main_cst_1_apply, val_main_cst_2_apply]
  rfl

/-! The operand indices of the four products at output entry (p, c) and contraction index k: the left operand
    is read at (p, k); the right one, a transpose, at (c, k) of the array transposed — for the mask's corner,
    at row `c` of the tall array. -/

theorem l12 (p : Fin 131072) (c k : Fin 256) : lidx_main_v12 (ix2 p c) k = ix2 p k :=
  funext fun a => by match a with | ⟨0, _⟩ => rfl | ⟨1, _⟩ => rfl
theorem l14 (p : Fin 131072) (c k : Fin 256) : lidx_main_v14 (ix2 p c) k = ix2 p k :=
  funext fun a => by match a with | ⟨0, _⟩ => rfl | ⟨1, _⟩ => rfl
theorem l16 (p : Fin 131072) (c k : Fin 256) : lidx_main_v16 (ix2 p c) k = ix2 p k :=
  funext fun a => by match a with | ⟨0, _⟩ => rfl | ⟨1, _⟩ => rfl
theorem l18 (p : Fin 131072) (c k : Fin 256) : lidx_main_v18 (ix2 p c) k = ix2 p k :=
  funext fun a => by match a with | ⟨0, _⟩ => rfl | ⟨1, _⟩ => rfl
theorem r12 (p : Fin 131072) (c k : Fin 256) : idx_main_v11 (ridx_main_v12 (ix2 p c) k) = ix2 c k :=
  funext fun a => by match a with | ⟨0, _⟩ => rfl | ⟨1, _⟩ => rfl
theorem r14 (p : Fin 131072) (c k : Fin 256) : idx_main_v13 (ridx_main_v14 (ix2 p c) k) = ix2 c k :=
  funext fun a => by match a with | ⟨0, _⟩ => rfl | ⟨1, _⟩ => rfl
theorem r16 (p : Fin 131072) (c k : Fin 256) : idx_main_v10 (idx_main_v15 (ridx_main_v16 (ix2 p c) k)) = ix2 (up c) k :=
  funext fun a => by match a with | ⟨0, _⟩ => rfl | ⟨1, _⟩ => rfl
theorem r18 (p : Fin 131072) (c k : Fin 256) : idx_main_v10 (idx_main_v17 (ridx_main_v18 (ix2 p c) k)) = ix2 (up c) k :=
  funext fun a => by match a with | ⟨0, _⟩ => rfl | ⟨1, _⟩ => rfl

variable (x0 : FVec Ideal S131072x256 .f32) (x1 : FVec Ideal S256x256 .f32) (x2 : FVec Ideal S131072x256 .f32)

/-- `x` against the rounded weight. -/
theorem prod_x_weight (p : Fin 131072) (c : Fin 256) :
    val_main_v12 (F := Ideal) x0 x1 (ix2 p c) = ∑ k : Fin 256, x0 (ix2 p k) * q (x1 (ix2 c k)) := by
  rw [val_main_v12_apply]
  refine Finset.sum_congr rfl fun k _ => ?_
  rw [val_main_v11_apply, weight_grid, l12, r12]

/-- The rounded mask against the rounded weight. -/
theorem prod_mask_weight (p : Fin 131072) (c : Fin 256) :
    val_main_v14 (F := Ideal) x1 x2 (ix2 p c) = ∑ k : Fin 256, q (x2 (ix2 p k)) * q (x1 (ix2 c k)) := by
  rw [val_main_v14_apply]
  refine Finset.sum_congr rfl fun k _ => ?_
  rw [val_main_v13_apply, weight_grid, mask_grid, l14, r14]

/-- `x` against the rounded mask's top corner. -/
theorem prod_x_corner (p : Fin 131072) (c : Fin 256) :
    val_main_v16 (F := Ideal) x0 x2 (ix2 p c) = ∑ k : Fin 256, x0 (ix2 p k) * q (x2 (ix2 (up c) k)) := by
  rw [val_main_v16_apply]
  refine Finset.sum_congr rfl fun k _ => ?_
  rw [val_main_v15_apply, val_main_v10_apply, mask_grid, l16, r16]

/-- The rounded mask against its own top corner. -/
theorem prod_mask_corner (p : Fin 131072) (c : Fin 256) :
    val_main_v18 (F := Ideal) x2 (ix2 p c) = ∑ k : Fin 256, q (x2 (ix2 p k)) * q (x2 (ix2 (up c) k)) := by
  rw [val_main_v18_apply]
  refine Finset.sum_congr rfl fun k _ => ?_
  rw [val_main_v17_apply, val_main_v10_apply, mask_grid, mask_grid, l18, r18]

/-- Entry (p, c) of the reference's result is the four-product form. -/
theorem result_apply (p : Fin 131072) (c : Fin 256) :
    val_main_v23 (F := Ideal) x0 x1 x2 (ix2 p c) = fourfold x0 x1 x2 p c := by
  rw [val_main_v23_apply, val_main_v22_apply, val_main_v21_apply, val_main_v20_apply, val_main_v19_apply,
    prod_x_weight, prod_mask_weight, prod_x_corner, prod_mask_corner, mask_grid]
  rfl

end Cert.ReferenceIdeal.RefValue

end
-- ==== Proof.KernelBody.lean ====
/-
  What one run of the kernel body stores, entry by entry, on the extended reals. From a [4096, 256] block `a`
  of the input, the matching block `b` of the mask and the whole [256, 256] matrix `wt`, entry (p, c) of the
  stored block is
      tanh( Σₖ (a[p,k] − q b[p,k]) · wt[k,c] ) + q b[p,c],
  `q` the rounding onto the 1/128 grid: the narrowing of the difference is the identity on the extended reals,
  the cast of `wt` to its own shape is the identity, and the matrix unit's product into a zero accumulator is
  the plain contraction over the one contracted axis.
-/
import proofs.«410917_j15135464751426_3_alg».proof.Proof.Gen.KernelIdeal.Skeleton
import proofs.«410917_j15135464751426_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Grid

/-! The product's operand indices at output index `i` and contraction position `s`: the left operand is read at
    (i₀, s), the right one at (s, i₁). -/

theorem lhs_0 (i : S4096x256.Idx) (s : dot_S4096x256_S256x256_S4096x256_1_0_0_1_n_n.contr.Idx) :
    (dot_S4096x256_S256x256_S4096x256_1_0_0_1_n_n.lhsIdx i s 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_1 (i : S4096x256.Idx) (s : dot_S4096x256_S256x256_S4096x256_1_0_0_1_n_n.contr.Idx) :
    (dot_S4096x256_S256x256_S4096x256_1_0_0_1_n_n.lhsIdx i s 1).val = (s ⟨0, by decide⟩).val :=
  dot_S4096x256_S256x256_S4096x256_1_0_0_1_n_n.lhsIdx_val_of_single rfl i s
theorem rhs_0 (i : S4096x256.Idx) (s : dot_S4096x256_S256x256_S4096x256_1_0_0_1_n_n.contr.Idx) :
    (dot_S4096x256_S256x256_S4096x256_1_0_0_1_n_n.rhsIdx i s 0).val = (s ⟨0, by decide⟩).val :=
  dot_S4096x256_S256x256_S4096x256_1_0_0_1_n_n.rhsIdx_val_of_single rfl i s
theorem rhs_1 (i : S4096x256.Idx) (s : dot_S4096x256_S256x256_S4096x256_1_0_0_1_n_n.contr.Idx) :
    (dot_S4096x256_S256x256_S4096x256_1_0_0_1_n_n.rhsIdx i s 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The matrix unit's product into a zero accumulator, at entry (p, c): the sum over `k` of `l[p,k] · r[k,c]`. -/
theorem product_apply (l : S4096x256.Idx → EReal) (r : S256x256.Idx → EReal) (p : Fin 4096) (c : Fin 256) :
    matmul (F := Ideal) (φ₁ := .bf16) (φ₂ := .bf16) dot_S4096x256_S256x256_S4096x256_1_0_0_1_n_n none l r (constant S4096x256 .f32 0x00000000#32) (ix2 p c)
      = ∑ k : Fin 256, l (ix2 p k) * r (ix2 k c) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p c) ((contrEquiv1 dot_S4096x256_S256x256_S4096x256_1_0_0_1_n_n 256 rfl rfl).symm k) = ix2 p k := funext fun a => Fin.ext (by
    match a with
    | ⟨0, _⟩ => exact lhs_0 _ _
    | ⟨1, _⟩ => exact (lhs_1 _ _).trans hk)
  have er : dot_S4096x256_S256x256_S4096x256_1_0_0_1_n_n.rhsIdx (ix2 p c) ((contrEquiv1 dot_S4096x256_S256x256_S4096x256_1_0_0_1_n_n 256 rfl rfl).symm k) = ix2 k c := funext fun a => Fin.ext (by
    match a with
    | ⟨0, _⟩ => exact (rhs_0 _ _).trans hk
    | ⟨1, _⟩ => exact rhs_1 _ _)
  rw [el, er]

/-- The stored block at entry (p, c). -/
theorem stored_apply (a b : S4096x256.Idx → EReal) (wt : S256x256.Idx → EReal) (p : Fin 4096) (c : Fin 256) :
    k0_pay1 (F := Ideal) a b wt (ix2 p c)
      = Ideal.tanh (∑ k : Fin 256, (a (ix2 p k) - q (b (ix2 p k))) * wt (ix2 k c)) + q (b (ix2 p c)) := by
  unfold k0_pay1
  show Ideal.tanh (matmul (F := Ideal) (φ₁ := .bf16) (φ₂ := .bf16) dot_S4096x256_S256x256_S4096x256_1_0_0_1_n_n none (fun j => a j - q (b j))
      (shapeCast S256x256 wt shapeCasts_S256x256_S256x256) (constant S4096x256 .f32 0x00000000#32) (ix2 p c))
    + q (b (ix2 p c)) = _
  rw [shapeCast_self, product_apply]

end Cert.KernelIdeal.Body

end
-- ==== Proof.KernelValue.lean ====
/-
  From the blocks to the array. The grid has 32 points; point `t` reads rows 4096·t … 4096·t + 4095 of the input
  and of the mask (whole rows: all 256 columns), the whole [256, 256] matrix the host prepared — entry (k, c) of
  which is `q w[c,k] − q mk[c,k]`, the difference of the rounded weight and the rounded top corner of the mask,
  transposed — and writes the same rows of the result. So what point `t` writes back is rows 4096·t … of the
  ONE whole-array function `collapsed` of the three argument arrays, the 32 row bands cover the array, and the
  result array ends holding that function.
-/
import proofs.«410917_j15135464751426_3_alg».proof.Proof.Gen.KernelIdeal.Value
import proofs.«410917_j15135464751426_3_alg».proof.Proof.KernelBody
import proofs.«410917_j15135464751426_3_alg».proof.Proof.Spec
import Idealize.ShloMosaic.Lib.ValueIdx
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Spec Cert.Grid
open Idealize.ShloMosaic.Pipeline (Dat)

variable (m : (ℓ : Loc nD τ sig) → Buf (Elt Ideal) ℓ) (ρ : Dev nD → PrngReg)

/-- The input, the weight and the mask as launched. -/
abbrev xs (c : Dev nD) : S131072x256.Idx → EReal := m ((c : Thread nD τ).loc main_arg0)
abbrev ws (c : Dev nD) : S256x256.Idx → EReal := m ((c : Thread nD τ).loc main_arg1)
abbrev ms (c : Dev nD) : S131072x256.Idx → EReal := m ((c : Thread nD τ).loc main_arg2)

/-- The whole result array: `collapsed` of the arguments at each entry's two coordinates. -/
def result (c : Dev nD) : S131072x256.Idx → EReal :=
  fun i => collapsed (xs m c) (ws m c) (ms m c) ⟨(i 0).val, (i 0).isLt⟩ ⟨(i 1).val, (i 1).isLt⟩

/-! ## The matrix the host prepared -/

/-- The third window's array when the region is entered, as the host operations' term of the arguments. -/
theorem prepared_term (c : Dev nD) : (V m c main_v13 : S256x256.Idx → EReal)
    = truncf .bf16 (transpose S256x256 [1, 0] (subf
        (Host.divf (Host.roundeven (mulf (m ((c : Thread nD τ).loc main_arg1)) (broadcastInDim S256x256 ![] bcast_S_S256x256 (constant (F := Ideal) S_ .f32 0x43000000#32))))
          (broadcastInDim S256x256 ![] bcast_S_S256x256 (constant (F := Ideal) S_ .f32 0x43000000#32)))
        (Host.divf (Host.roundeven (mulf (extractStridedSlice S256x256 ![0, 0] (m ((c : Thread nD τ).loc main_arg2)) slices_S131072x256_S256x256_0_0) (broadcastInDim S256x256 ![] bcast_S_S256x256 (constant (F := Ideal) S_ .f32 0x43000000#32))))
          (broadcastInDim S256x256 ![] bcast_S_S256x256 (constant (F := Ideal) S_ .f32 0x43000000#32))))
        transposes_S256x256_S256x256_1_0) bitsLt_bf16_f32 := by
  dsimp only [V]
  simp only [hostOps0, hostOps0_1, hostOps0_2, hostOps0_3, hostOps0_4, List.flatten_cons, List.flatten_nil, List.append_nil, List.cons_append, List.nil_append]
  after_results
  rfl

/-- Entry (k, c) of it: the rounded weight less the rounded mask, both at row `c`, column `k`. -/
theorem prepared_apply (c : Dev nD) (k cc : Fin 256) :
    (V m c main_v13 : S256x256.Idx → EReal) (ix2 k cc) = q (ws m c (ix2 cc k)) - q (ms m c (ix2 (up cc) k)) := by
  rw [prepared_term, truncf_apply,
    transpose_apply [1, 0] _ transposes_S256x256_S256x256_1_0 (ix2 k cc) (ix2 cc k) (fun b => match b with
      | ⟨0, _⟩ => rfl
      | ⟨1, _⟩ => rfl),
    subf_apply]
  show q (ws m c (ix2 cc k)) - q (extractStridedSlice S256x256 ![0, 0] (ms m c) slices_S131072x256_S256x256_0_0 (ix2 cc k)) = _
  rw [extractStridedSlice_apply ![0, 0] (ms m c) slices_S131072x256_S256x256_0_0 (ix2 cc k) (ix2 (up cc) k) (fun a => match a with
    | ⟨0, _⟩ => by show cc.val = 0 + cc.val; omega
    | ⟨1, _⟩ => by show k.val = 0 + k.val; omega)]

/-! ## One point's stored block, over any blocks that are the right rows -/

/-- If `a` and `b` are rows 4096·n … of the arrays `X` and `MK` and `wt` is the prepared matrix of `W` and `MK`, the
    stored block's entry (p, c) is `collapsed X W MK` at (4096·n + p, c). -/
theorem stored_rows (X MK : Tall.Idx → EReal) (W : Square.Idx → EReal) (a b : S4096x256.Idx → EReal) (wt : S256x256.Idx → EReal)
    (n : Nat) (row : Fin 4096 → Fin 131072) (hrow : ∀ p, (row p).val = 4096 * n + p.val)
    (ha : ∀ p k, a (ix2 p k) = X (ix2 (row p) k)) (hb : ∀ p k, b (ix2 p k) = MK (ix2 (row p) k))
    (hwt : ∀ k cc, wt (ix2 k cc) = q (W (ix2 cc k)) - q (MK (ix2 (up cc) k))) (p : Fin 4096) (cc : Fin 256) :
    k0_pay1 (F := Ideal) a b wt (ix2 p cc) = collapsed X W MK (row p) cc := by
  rw [Cert.KernelIdeal.Body.stored_apply]
  unfold collapsed
  simp only [ha, hb, hwt]

/-! ## The index maps, decided over the 32 points -/

theorem hz : (![0, 0] : Fin 2 → Nat) = fun _ => 0 := funext fun a => by fin_cases a <;> rfl

theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s band, as a row of the tall arrays. -/
def bandRow (t : Fin cfg0.N) (p : Fin 4096) : Fin 131072 :=
  ⟨4096 * t.val + p.val, by have := t.isLt; have := p.isLt; have h : cfg0.N = 32 := N_0; omega⟩

theorem x_block (c : Dev nD) (t : Fin cfg0.N) (p : Fin 4096) (k : Fin 256) :
    (iblk m c 0 t : S4096x256.Idx → EReal) (ix2 p k) = xs m c (ix2 (bandRow t p) k) := by
  obtain ⟨e0, e1, -⟩ := index_facts t
  unfold iblk
  rw [View.read_apply]
  show (V m c main_arg0 : S131072x256.Idx → EReal) _ = _
  rw [V_main_arg0]
  show xs m c _ = xs m c _
  congr 1
  funext a
  apply Fin.ext
  match a with
  | ⟨0, _⟩ => show win0_0.index t (0 : Fin 2) * 4096 + 1 * p.val = 4096 * t.val + p.val; rw [e0]; omega
  | ⟨1, _⟩ => show win0_0.index t (1 : Fin 2) * 256 + 1 * k.val = k.val; rw [e1]; omega

theorem mask_block (c : Dev nD) (t : Fin cfg0.N) (p : Fin 4096) (k : Fin 256) :
    (iblk m c 1 t : S4096x256.Idx → EReal) (ix2 p k) = ms m c (ix2 (bandRow t p) k) := by
  obtain ⟨-, -, e0, e1, -⟩ := index_facts t
  unfold iblk
  rw [View.read_apply]
  show (V m c main_arg2 : S131072x256.Idx → EReal) _ = _
  rw [V_main_arg2]
  show ms m c _ = ms m c _
  congr 1
  funext a
  apply Fin.ext
  match a with
  | ⟨0, _⟩ => show win0_1.index t (0 : Fin 2) * 4096 + 1 * p.val = 4096 * t.val + p.val; rw [e0]; omega
  | ⟨1, _⟩ => show win0_1.index t (1 : Fin 2) * 256 + 1 * k.val = k.val; rw [e1]; omega

/-- The third window's one block is the whole prepared matrix, at every point. -/
theorem prepared_block (c : Dev nD) (t : Fin cfg0.N) (k cc : Fin 256) :
    (iblk m c 2 t : S256x256.Idx → EReal) (ix2 k cc) = q (ws m c (ix2 cc k)) - q (ms m c (ix2 (up cc) k)) := by
  obtain ⟨-, -, -, -, e0, e1, -⟩ := index_facts t
  rw [← prepared_apply m c k cc]
  unfold iblk
  rw [View.read_apply]
  show (V m c main_v13 : S256x256.Idx → EReal) _ = (V m c main_v13 : S256x256.Idx → EReal) _
  congr 1
  funext a
  apply Fin.ext
  match a with
  | ⟨0, _⟩ => show win0_2.index t (0 : Fin 2) * 256 + 1 * k.val = k.val; rw [e0]; omega
  | ⟨1, _⟩ => show win0_2.index t (1 : Fin 2) * 256 + 1 * cc.val = cc.val; rw [e1]; omega

/-! ## What a point writes back, the cover, the array, the run -/

/-- Point `t` writes back band `t` of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S4096x256) hz, View.ld_unit_zero (S := S256x256) hz]
  obtain ⟨-, -, -, -, -, -, e0, e1⟩ := index_facts t
  funext j
  obtain ⟨p, cc, rfl⟩ : ∃ (p : Fin 4096) (cc : Fin 256), j = ix2 p cc := ⟨j 0, j 1, eq_ix2 j⟩
  show k0_pay1 (F := Ideal) (iblk m c 0 t) (iblk m c 1 t) (iblk m c 2 t) (ix2 p cc)
    = result m c (((cfg0.win 3).blk t).view.emb (ix2 p cc))
  refine (stored_rows (xs m c) (ms m c) (ws m c) (iblk m c 0 t) (iblk m c 1 t) (iblk m c 2 t) t.val (bandRow t) (fun _ => rfl)
    (x_block m c t) (mask_block m c t) (prepared_block m c t) p cc).trans ?_
  unfold result
  congr 1 <;> apply Fin.ext
  · show 4096 * t.val + p.val = win0_3.index t (0 : Fin 2) * 4096 + 1 * p.val; rw [e0]; omega
  · show cc.val = win0_3.index t (1 : Fin 2) * 256 + 1 * cc.val; rw [e1]; omega

/-- An entry is in band `t` iff its row is one of the band's 4096 rows (and its column any of the 256). -/
theorem mem_band (t : Fin cfg0.N) (i : S131072x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v14).slice (win0_3.rect t)).set ↔ _
  rw [View.set_slice_whole, Rect.mem_set_unit]
  exact Iff.rfl

/-- The 32 bands cover the array: row `r` lies in band `r / 4096`. -/
theorem covered (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 32 := N_0
  obtain ⟨t, ht⟩ : ∃ t : Fin cfg0.N, t.val = (i 0).val / 4096 := ⟨⟨(i 0).val / 4096, by omega⟩, rfl⟩
  obtain ⟨-, -, -, -, -, -, e0, e1⟩ := index_facts t
  refine ⟨t, flush0_3 t, ?_⟩
  rw [mem_band]
  intro a
  match a with
  | ⟨0, _⟩ => show win0_3.index t (0 : Fin 2) * 4096 ≤ (i 0).val ∧ (i 0).val < win0_3.index t (0 : Fin 2) * 4096 + 4096; rw [e0]; omega
  | ⟨1, _⟩ => show win0_3.index t (1 : Fin 2) * 256 ≤ (i 1).val ∧ (i 1).val < win0_3.index t (1 : Fin 2) * 256 + 256; rw [e1]; omega

/-- So the result array ends holding `result`. -/
theorem final (c : Dev nD) : (dats m 0 c).arrAt 3 cfg0.N = result m c :=
  (dats m 0 c).arrAt_eq_of_cover 3 (result m c) (fun t _ => flushed_eq m c t) covered

/-- The run, read: the result array at `result`, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The certificate of one masked, fixed-point linear layer. Write `q` for rounding onto the 1/128 grid
  (`round_even (a · 128) / 128`), `x` for the [131072, 256] input, `w` for the [256, 256] weight and `mk` for the
  [131072, 256] mask.

  The reference computes, with `M = q mk`, `B = q w` and `C` the top [256, 256] corner of `M`,
      tanh( ((x·Bᵀ − M·Bᵀ) − x·Cᵀ) + M·Cᵀ ) + M,
  four matrix products. The kernel computes the one product
      tanh( (x − M) · (B − C)ᵀ ) + M,
  the matrix `(B − C)ᵀ` prepared on the host and the rest inside one pipelined call over 32 bands of 4096 rows.
  Entry by entry the two differ exactly by the bilinearity of the contraction,
      Σₖ (xₖ − Mₖ)(Bₖ − Cₖ) = ((Σₖ xₖBₖ − Σₖ MₖBₖ) − Σₖ xₖCₖ) + Σₖ MₖCₖ,
  which holds on the extended reals once every entry is finite: that is where the precondition is used (finite
  inputs are reals, their grid values are reals). Everything else is the same on both sides: the same rounding of
  the same entries, the same hyperbolic tangent, and a narrowing of the float format is the identity on the
  extended reals.

  The three frames are the generated ones (the reference's is its generated run with the result dropped); the
  idealization rewrote nothing, so that conjunct is trivial; the value conjunct sets the kernel's run, read as the
  whole-array function `collapsed` (Proof/KernelValue.lean over Proof/KernelBody.lean), beside the reference's run,
  read as `fourfold` (Proof/RefValue.lean), and joins them by Proof/Spec.lean's `fourfold_eq_collapsed` under
  Proof/Finite.lean's reading of the precondition.
-/
import proofs.«410917_j15135464751426_3_alg».proof.Defs
import proofs.«410917_j15135464751426_3_alg».proof.Proof.Gen.Kernel
import proofs.«410917_j15135464751426_3_alg».proof.Proof.Gen.Kernel.Skeleton
import proofs.«410917_j15135464751426_3_alg».proof.Proof.Gen.Kernel.Launch
import proofs.«410917_j15135464751426_3_alg».proof.Proof.Gen.Kernel.Points
import proofs.«410917_j15135464751426_3_alg».proof.Proof.Gen.Kernel.Frame
import proofs.«410917_j15135464751426_3_alg».proof.Proof.Gen.KernelIdeal
import proofs.«410917_j15135464751426_3_alg».proof.Proof.Gen.KernelIdeal.Skeleton
import proofs.«410917_j15135464751426_3_alg».proof.Proof.Gen.KernelIdeal.Launch
import proofs.«410917_j15135464751426_3_alg».proof.Proof.Gen.KernelIdeal.Points
import proofs.«410917_j15135464751426_3_alg».proof.Proof.Gen.KernelIdeal.Frame
import proofs.«410917_j15135464751426_3_alg».proof.Proof.Gen.ReferenceIdeal
import proofs.«410917_j15135464751426_3_alg».proof.Proof.Gen.KernelIdeal.Value
import proofs.«410917_j15135464751426_3_alg».proof.Proof.Gen.ReferenceIdeal.Run
import proofs.«410917_j15135464751426_3_alg».proof.Proof.Gen.ReferenceIdeal.Read
import proofs.«410917_j15135464751426_3_alg».proof.Proof.Gen.Pre_finite_inputs
import proofs.«410917_j15135464751426_3_alg».proof.Proof.Finite
import proofs.«410917_j15135464751426_3_alg».proof.Proof.RefValue
import proofs.«410917_j15135464751426_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From finite arguments that agree, the kernel's result array ends at `collapsed` of them and the reference's at
    `fourfold` of them: one array, by bilinearity over the reals. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  obtain ⟨h0, h1, h2⟩ := Cert.Finite.entries_real _ _ _ (hpre c)
  funext i
  obtain ⟨p, cc, rfl⟩ : ∃ (p : Fin 131072) (cc : Fin 256), i = ix2 p cc := ⟨i 0, i 1, eq_ix2 i⟩
  rw [Cert.ReferenceIdeal.RefValue.result_apply]
  exact Cert.Spec.fourfold_eq_collapsed _ _ _ h0 h1 h2 p cc

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
